-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4x2048x4096 .f32) (main_arg1 : IVec S4096x2048 32) (main_arg2 : FVec F S4096x32 .f32) (main_arg3 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S4x2048x4096 : Shape := ⟨3, ![4, 2048, 4096]⟩
abbrev S4096x2048 : Shape := ⟨2, ![4096, 2048]⟩
abbrev S4096x32 : Shape := ⟨2, ![4096, 32]⟩
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S256x2048 : Shape := ⟨2, ![256, 2048]⟩
abbrev S512x2048 : Shape := ⟨2, ![512, 2048]⟩
abbrev S512x32 : Shape := ⟨2, ![512, 32]⟩
abbrev S256x512 : Shape := ⟨2, ![256, 512]⟩
abbrev S512x32x1 : Shape := ⟨3, ![512, 32, 1]⟩
abbrev S512x32x64 : Shape := ⟨3, ![512, 32, 64]⟩

abbrev nBuf : Space → Nat
  | .hbm => 14
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S8192x4096, .f32⟩
  | .hbm, ⟨5, _⟩ => ⟨S8192x4096, .bf16⟩
  | .hbm, ⟨6, _⟩ => ⟨S8192x2048x2, .bf16⟩
  | .hbm, ⟨7, _⟩ => ⟨S8192x2048x1, .bf16⟩
  | .hbm, ⟨8, _⟩ => ⟨S8192x2048, .bf16⟩
  | .hbm, ⟨9, _⟩ => ⟨S8192x2048x1, .bf16⟩
  | .hbm, ⟨10, _⟩ => ⟨S8192x2048, .bf16⟩
  | .hbm, ⟨11, _⟩ => ⟨S4096x32, .f32⟩
  | .hbm, ⟨12, _⟩ => ⟨S8192x4096, .f32⟩
  | .hbm, ⟨13, _⟩ => ⟨S4x2048x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .i32⟩
  | .local _ .vmem, ⟨5, _⟩ => ⟨S512x2048, .i32⟩
  | .local _ .vmem, ⟨6, _⟩ => ⟨S512x32, .f32⟩
  | .local _ .vmem, ⟨7, _⟩ => ⟨S512x32, .f32⟩
  | .local _ .vmem, ⟨8, _⟩ => ⟨S512x32, .f32⟩
  | .local _ .vmem, ⟨9, _⟩ => ⟨S512x32, .f32⟩
  | .local _ .vmem, ⟨10, _⟩ => ⟨S256x512, .f32⟩
  | .local _ .vmem, ⟨11, _⟩ => ⟨S256x512, .f32⟩
  | .local _ .vmem, ⟨12, _⟩ => ⟨S512x2048, .bf16⟩
  | .local _ .vmem, ⟨13, _⟩ => ⟨S512x2048, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S512x2048_S512x2048_0_0 : ∀ a, (![0, 0] : Fin 2 → Nat) a + S512x2048.size a ≤ S512x2048.size a
  h_S512x2048 : 0 < S512x2048.numel
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  shapeCasts_S512x32x1_S512x32x1 : S512x32x1.ShapeCasts S512x32x1
  broadcasts_S512x32x1_S512x32x64 : S512x32x1.Broadcasts S512x32x64
  shapeCasts_S512x32x64_S512x2048 : S512x32x64.ShapeCasts S512x2048
  shapeCasts_S512x32_S512x32 : S512x32.ShapeCasts S512x32
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  shapeCasts_S8192x4096_S4x2048x4096 : S8192x4096.ShapeCasts S4x2048x4096
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .bf16 = 32 ∨ (Rect.block (s := S8192x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .i32 = 32 ∨ (Rect.block (s := S4096x2048) S512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S4096x32.size a
  hwx0_4 : ∀ i : grid0.Coords, EltTy.bits .f32 = 32 ∨ (Rect.block (s := S4096x32) S512x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x4096.size a
  hwx0_5 : ∀ i : grid0.Coords, EltTy.bits .f32 = 32 ∨ (Rect.block (s := S8192x4096) S256x512.size (cc0_transform_5 i) (hinb0_5 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_v4) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x32 : Shape := ⟨2, ![4096, 32]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S_, .i32⟩
  | .hbm, ⟨5, _⟩ => ⟨S4096x2048, .i32⟩
  | .hbm, ⟨6, _⟩ => ⟨S4096x2048, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S4096x2048x1, .i32⟩
  | .hbm, ⟨14, _⟩ => ⟨S4096x2048x1, .i32⟩
  | .hbm, ⟨15, _⟩ => ⟨S4096x2048x2, .i32⟩
  | .hbm, ⟨16, _⟩ => ⟨S4096x4096, .i32⟩
  | .hbm, ⟨17, _⟩ => ⟨S4096x4096, .f32⟩
  | .hbm, ⟨18, _⟩ => ⟨S4096x32x128, .f32⟩
  | .hbm, ⟨19, _⟩ => ⟨S4096x32x1, .f32⟩
  | .hbm, ⟨20, _⟩ => ⟨S4096x32x128, .f32⟩
  | .hbm, ⟨21, _⟩ => ⟨S4096x32x128, .f32⟩
  | .hbm, ⟨22, _⟩ => ⟨S4096x32x1, .f32⟩
  | .hbm, ⟨23, _⟩ => ⟨S4096x32x128, .f32⟩
  | .hbm, ⟨24, _⟩ => ⟨S4096x32x128, .f32⟩
  | .hbm, ⟨25, _⟩ => ⟨S4096x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values of the blocks it was handed.

  At the first row tile of a column block (the branch taken) the body dequantizes the packed codes into two
  carried tiles, one for the low codes and one for the high codes, and then multiplies; at every other row tile it
  only multiplies, against the two tiles the earlier point left. In both cases the output tile is the sum of the two
  products.
-/
import proofs.«407883_j68393059222044_3_alg».proof.Proof.Gen.KernelIdeal.Frame
import Idealize.ShloMosaic.Lib.Pipeline.Value
import Idealize.ShloMosaic.Lib.Tactic

set_option maxRecDepth 16384

noncomputable section

namespace Cert.KernelIdeal.DqPieces

open Cert.KernelIdeal Cert.KernelIdeal.Gen Idealize.ShloMosaic Idealize.ShloMosaic.TcCoe Idealize.SL.Sem Idealize.ShloMosaic.Tactic

variable {F : FTy → Type} [FloatOps F]

theorem offsets_zero : (![0, 0] : Fin 2 → Nat) = fun _ => 0 := funext fun a => by fin_cases a <;> rfl

/-- Dequantizing point: the low-code tile is the dequantized low codes of the packed block. -/
theorem lowTile_first (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S512x2048 .i32) (harg4 : arg4.IsWhole) (arg5 : Memref sig .tc .vmem S512x32 .f32) (harg5 : arg5.IsWhole) (arg6 : Memref sig .tc .vmem S512x32 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (hc0 : cond0_0 i) (x0 : Vec F S256x2048 .bf16) (x1 : Vec F S256x2048 .bf16) (x2 : Vec F S512x2048 .i32) (x3 : Vec F S512x32 .f32) (x4 : Vec F S512x32 .f32) :
    sout0_A_0 c i arg2 harg2 arg3 harg3 arg4 harg4 arg5 harg5 arg6 harg6 arg7 harg7 arg8 harg8 arg9 harg9 hc0 x0 x1 x2 x3 x4 = k0_pay3 x2 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero offsets_zero]
  simp only [View.readAt_eq_ld, harg4.read_unread, harg5.read_unread, harg6.read_unread,
    View.ld_unit_zero (S := S512x2048) offsets_zero, View.ld_unit_zero (S := S512x32) offsets_zero]

/-- Dequantizing point: the high-code tile likewise. -/
theorem highTile_first (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S512x2048 .i32) (harg4 : arg4.IsWhole) (arg5 : Memref sig .tc .vmem S512x32 .f32) (harg5 : arg5.IsWhole) (arg6 : Memref sig .tc .vmem S512x32 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (hc0 : cond0_0 i) (x0 : Vec F S256x2048 .bf16) (x1 : Vec F S256x2048 .bf16) (x2 : Vec F S512x2048 .i32) (x3 : Vec F S512x32 .f32) (x4 : Vec F S512x32 .f32) :
    sout0_A_1 c i arg2 harg2 arg3 harg3 arg4 harg4 arg5 harg5 arg6 harg6 arg7 harg7 arg8 harg8 arg9 harg9 hc0 x0 x1 x2 x3 x4 = k0_pay4 x2 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero offsets_zero]
  simp only [View.readAt_eq_ld, harg4.read_unread, harg5.read_unread, harg6.read_unread,
    View.ld_unit_zero (S := S512x2048) offsets_zero, View.ld_unit_zero (S := S512x32) offsets_zero]

/-- Dequantizing point: the output tile is the two products against the tiles just dequantized. -/
theorem out_first (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S512x2048 .i32) (harg4 : arg4.IsWhole) (arg5 : Memref sig .tc .vmem S512x32 .f32) (harg5 : arg5.IsWhole) (arg6 : Memref sig .tc .vmem S512x32 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (hc0 : cond0_0 i) (x0 : Vec F S256x2048 .bf16) (x1 : Vec F S256x2048 .bf16) (x2 : Vec F S512x2048 .i32) (x3 : Vec F S512x32 .f32) (x4 : Vec F S512x32 .f32) :
    out0_A_5 c i arg2 harg2 arg3 harg3 arg4 harg4 arg5 harg5 arg6 harg6 arg7 harg7 arg8 harg8 arg9 harg9 hc0 x0 x1 x2 x3 x4 = k0_pay5 x0 x1 (k0_pay3 x2 x3 x4) (k0_pay4 x2 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero offsets_zero]
  simp only [View.readAt_eq_ld, harg2.read_unread, harg3.read_unread, harg4.read_unread, harg5.read_unread, harg6.read_unread,
    View.ld_unit_zero (S := S256x2048) offsets_zero, View.ld_unit_zero (S := S512x2048) offsets_zero,
    View.ld_unit_zero (S := S512x32) offsets_zero, View.readCov_unit_zero (S := S512x2048) _ offsets_zero]

/-- Every other point: the output tile is the two products against the carried tiles. -/
theorem out_later (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S512x2048 .i32) (harg4 : arg4.IsWhole) (arg5 : Memref sig .tc .vmem S512x32 .f32) (harg5 : arg5.IsWhole) (arg6 : Memref sig .tc .vmem S512x32 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (hc0 : ¬cond0_0 i) (x0 : Vec F S256x2048 .bf16) (x1 : Vec F S256x2048 .bf16) (x2 : Vec F S512x2048 .i32) (x3 : Vec F S512x32 .f32) (x4 : Vec F S512x32 .f32) (xs0 : Vec F S512x2048 .bf16) (xs1 : Vec F S512x2048 .bf16) :
    out0_B_5 c i arg2 harg2 arg3 harg3 arg4 harg4 arg5 harg5 arg6 harg6 arg7 harg7 arg8 harg8 arg9 harg9 hc0 x0 x1 x2 x3 x4 xs0 xs1 = k0_pay5 x0 x1 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero offsets_zero]
  simp only [View.readAt_eq_ld, harg2.read_unread, harg3.read_unread, harg8.read_unread, harg9.read_unread,
    View.ld_unit_zero (S := S256x2048) offsets_zero, View.ld_unit_zero (S := S512x2048) offsets_zero]

end Cert.KernelIdeal.DqPieces

end
-- ==== Proof.Blocks.lean ====
/-
  Where a block sits in its array. The grid has 8 column tiles (outer) by 32 row tiles (inner): point `t` is row
  tile `t % 32` and column tile `t / 32`. The two activation halves are read 256 rows at a time at the row tile;
  the packed codes, the scales and the folded zero points 512 output rows at a time at the column tile; the output
  tile is 256 rows by 512 output rows at (row tile, column tile).
-/
import proofs.«407883_j68393059222044_3_alg».proof.Proof.Gen.KernelIdeal.Frame
import Idealize.ShloMosaic.Lib.Pipeline.Value
import Idealize.ShloMosaic.Lib.ValueIdx

set_option maxRecDepth 16384

noncomputable section

namespace Cert.KernelIdeal.DqBlocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps at every grid point: decided once over the 256 points. -/
theorem index_facts : ∀ t : Fin cfg0.N,
    win0_0.index t (0 : Fin 2) = t.val % 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = t.val / 32 ∧ win0_4.index t (1 : Fin 2) = 0
    ∧ win0_5.index t (0 : Fin 2) = t.val % 32 ∧ win0_5.index t (1 : Fin 2) = t.val / 32 :=
  (by decide +kernel : ∀ t : Fin grid0.N, _)

/-- The row tile of a point. -/
def rowTile (t : Fin cfg0.N) : Fin 32 := ⟨t.val % 32, Nat.mod_lt _ (by decide)⟩
/-- The column tile of a point. -/
def colTile (t : Fin cfg0.N) : Fin 8 := ⟨t.val / 32, by have h := t.isLt; have hN : cfg0.N = 256 := N_0; omega⟩
/-- Row `r` of row tile `i`, among the 8192 flattened activation rows. -/
def tileRow (i : Fin 32) (r : Fin 256) : Fin 8192 := ⟨256 * i.val + r.val, by have := i.isLt; have := r.isLt; omega⟩
/-- Output row `q` of column tile `j`, among the 4096 output rows. -/
def tileCol (j : Fin 8) (q : Fin 512) : Fin 4096 := ⟨512 * j.val + q.val, by have := j.isLt; have := q.isLt; omega⟩

/-- The region's input arrays as it finds them, at their literal types. -/
abbrev evenArr (c : Dev nD) : FVec F S8192x2048 .bf16 := V m c main_v4
abbrev oddArr (c : Dev nD) : FVec F S8192x2048 .bf16 := V m c main_v6
abbrev codeArr (c : Dev nD) : IVec S4096x2048 32 := V m c main_arg1
abbrev scaleArr (c : Dev nD) : FVec F S4096x32 .f32 := V m c main_arg2
abbrev foldedArr (c : Dev nD) : FVec F S4096x32 .f32 := V m c main_v7

/-- The blocks a point is handed, at their literal types. -/
abbrev evenBlk (c : Dev nD) (t : Fin cfg0.N) : FVec F S256x2048 .bf16 := iblk m c 0 t
abbrev oddBlk (c : Dev nD) (t : Fin cfg0.N) : FVec F S256x2048 .bf16 := iblk m c 1 t
abbrev codeBlk (c : Dev nD) (t : Fin cfg0.N) : IVec S512x2048 32 := iblk m c 2 t
abbrev scaleBlk (c : Dev nD) (t : Fin cfg0.N) : FVec F S512x32 .f32 := iblk m c 3 t
abbrev foldedBlk (c : Dev nD) (t : Fin cfg0.N) : FVec F S512x32 .f32 := iblk m c 4 t

theorem evenBlk_apply (c : Dev nD) (t : Fin cfg0.N) (r : Fin 256) (k : Fin 2048) :
    evenBlk m c t (ix2 r k) = evenArr m c (ix2 (tileRow (rowTile t) r) k) := by
  obtain ⟨e0, e1, -⟩ := index_facts t
  show iblk m c 0 t (ix2 r k) = V m c main_v4 _
  unfold iblk
  rw [View.read_apply]
  show V m c main_v4 _ = V m c main_v4 _
  congr 1
  funext a
  apply Fin.ext
  match a with
  | ⟨0, _⟩ => show win0_0.index t (0 : Fin 2) * 256 + 1 * r.val = 256 * (t.val % 32) + r.val; rw [e0]; omega
  | ⟨1, _⟩ => show win0_0.index t (1 : Fin 2) * 2048 + 1 * k.val = k.val; rw [e1]; omega

theorem oddBlk_apply (c : Dev nD) (t : Fin cfg0.N) (r : Fin 256) (k : Fin 2048) :
    oddBlk m c t (ix2 r k) = oddArr m c (ix2 (tileRow (rowTile t) r) k) := by
  obtain ⟨-, -, e0, e1, -⟩ := index_facts t
  show iblk m c 1 t (ix2 r k) = V m c main_v6 _
  unfold iblk
  rw [View.read_apply]
  show V m c main_v6 _ = V m c main_v6 _
  congr 1
  funext a
  apply Fin.ext
  match a with
  | ⟨0, _⟩ => show win0_1.index t (0 : Fin 2) * 256 + 1 * r.val = 256 * (t.val % 32) + r.val; rw [e0]; omega
  | ⟨1, _⟩ => show win0_1.index t (1 : Fin 2) * 2048 + 1 * k.val = k.val; rw [e1]; omega

theorem codeBlk_apply (c : Dev nD) (t : Fin cfg0.N) (q : Fin 512) (k : Fin 2048) :
    codeBlk m c t (ix2 q k) = codeArr m c (ix2 (tileCol (colTile t) q) k) := by
  obtain ⟨-, -, -, -, e0, e1, -⟩ := index_facts t
  show iblk m c 2 t (ix2 q k) = V m c main_arg1 _
  unfold iblk
  rw [View.read_apply]
  show V m c main_arg1 _ = V m c main_arg1 _
  congr 1
  funext a
  apply Fin.ext
  match a with
  | ⟨0, _⟩ => show win0_2.index t (0 : Fin 2) * 512 + 1 * q.val = 512 * (t.val / 32) + q.val; rw [e0]; omega
  | ⟨1, _⟩ => show win0_2.index t (1 : Fin 2) * 2048 + 1 * k.val = k.val; rw [e1]; omega

theorem scaleBlk_apply (c : Dev nD) (t : Fin cfg0.N) (q : Fin 512) (g : Fin 32) :
    scaleBlk m c t (ix2 q g) = scaleArr m c (ix2 (tileCol (colTile t) q) g) := by
  obtain ⟨-, -, -, -, -, -, e0, e1, -⟩ := index_facts t
  show iblk m c 3 t (ix2 q g) = V m c main_arg2 _
  unfold iblk
  rw [View.read_apply]
  show V m c main_arg2 _ = V m c main_arg2 _
  congr 1
  funext a
  apply Fin.ext
  match a with
  | ⟨0, _⟩ => show win0_3.index t (0 : Fin 2) * 512 + 1 * q.val = 512 * (t.val / 32) + q.val; rw [e0]; omega
  | ⟨1, _⟩ => show win0_3.index t (1 : Fin 2) * 32 + 1 * g.val = g.val; rw [e1]; omega

theorem foldedBlk_apply (c : Dev nD) (t : Fin cfg0.N) (q : Fin 512) (g : Fin 32) :
    foldedBlk m c t (ix2 q g) = foldedArr m c (ix2 (tileCol (colTile t) q) g) := by
  obtain ⟨-, -, -, -, -, -, -, -, e0, e1, -⟩ := index_facts t
  show iblk m c 4 t (ix2 q g) = V m c main_v7 _
  unfold iblk
  rw [View.read_apply]
  show V m c main_v7 _ = V m c main_v7 _
  congr 1
  funext a
  apply Fin.ext
  match a with
  | ⟨0, _⟩ => show win0_4.index t (0 : Fin 2) * 512 + 1 * q.val = 512 * (t.val / 32) + q.val; rw [e0]; omega
  | ⟨1, _⟩ => show win0_4.index t (1 : Fin 2) * 32 + 1 * g.val = g.val; rw [e1]; omega

end Cert.KernelIdeal.DqBlocks

end
-- ==== Proof.Tiles.lean ====
/-
  What the carried tiles and the output tile hold after every grid point.

  Within one column tile the 32 row tiles run in order; the first dequantizes the column tile's codes and every later
  one finds the two dequantized tiles as the point before left them. So after ANY point the two carried tiles are the
  dequantized codes of that point's column tile (induction on the point), and the output tile is the point's two
  activation blocks multiplied against them.
-/
import proofs.«407883_j68393059222044_3_alg».proof.Proof.Pieces
import proofs.«407883_j68393059222044_3_alg».proof.Proof.Blocks

set_option maxRecDepth 16384

noncomputable section

namespace Cert.KernelIdeal.DqTiles

open Cert.KernelIdeal Cert.KernelIdeal.Gen Idealize.ShloMosaic Idealize.ShloMosaic.TcCoe Idealize.SL.Sem Idealize.ShloMosaic.ValueIdx
open Cert.KernelIdeal.DqPieces Cert.KernelIdeal.DqBlocks

variable {F : FTy → Type} [FloatOps F]
variable (m : (ℓ : Loc nD τ sig) → Buf (Elt F) ℓ)

/-- The packed codes of column tile `j`, read off the whole array. -/
def codeTile (c : Dev nD) (j : Fin 8) : IVec S512x2048 32 :=
  fun y => codeArr m c (ix2 (tileCol j ⟨(y 0).val, (y 0).isLt⟩) ⟨(y 1).val, (y 1).isLt⟩)
/-- The scales of column tile `j`. -/
def scaleTile (c : Dev nD) (j : Fin 8) : FVec F S512x32 .f32 :=
  fun y => scaleArr m c (ix2 (tileCol j ⟨(y 0).val, (y 0).isLt⟩) ⟨(y 1).val, (y 1).isLt⟩)
/-- The folded zero points of column tile `j`. -/
def foldedTile (c : Dev nD) (j : Fin 8) : FVec F S512x32 .f32 :=
  fun y => foldedArr m c (ix2 (tileCol j ⟨(y 0).val, (y 0).isLt⟩) ⟨(y 1).val, (y 1).isLt⟩)

theorem codeBlk_eq (c : Dev nD) (t : Fin cfg0.N) : (iblk m c 2 t : IVec S512x2048 32) = codeTile m c (colTile t) := by
  funext y
  obtain ⟨q, k, rfl⟩ : ∃ (q : Fin 512) (k : Fin 2048), y = ix2 q k := ⟨y 0, y 1, eq_ix2 y⟩
  exact codeBlk_apply m c t q k
theorem scaleBlk_eq (c : Dev nD) (t : Fin cfg0.N) : (iblk m c 3 t : FVec F S512x32 .f32) = scaleTile m c (colTile t) := by
  funext y
  obtain ⟨q, g, rfl⟩ : ∃ (q : Fin 512) (g : Fin 32), y = ix2 q g := ⟨y 0, y 1, eq_ix2 y⟩
  exact scaleBlk_apply m c t q g
theorem foldedBlk_eq (c : Dev nD) (t : Fin cfg0.N) : (iblk m c 4 t : FVec F S512x32 .f32) = foldedTile m c (colTile t) := by
  funext y
  obtain ⟨q, g, rfl⟩ : ∃ (q : Fin 512) (g : Fin 32), y = ix2 q g := ⟨y 0, y 1, eq_ix2 y⟩
  exact foldedBlk_apply m c t q g

/-- The dequantized low codes of column tile `j`. -/
def lowTile (c : Dev nD) (j : Fin 8) : FVec F S512x2048 .bf16 := k0_pay3 (codeTile m c j) (scaleTile m c j) (foldedTile m c j)
/-- The dequantized high codes of column tile `j`. -/
def highTile (c : Dev nD) (j : Fin 8) : FVec F S512x2048 .bf16 := k0_pay4 (codeTile m c j) (scaleTile m c j) (foldedTile m c j)

/-- A point that is not the first row tile of its column tile shares the column tile of the point before. -/
theorem colTile_succ (n : ℕ) (h : n + 1 < cfg0.N) (h0 : ¬(n + 1) % 32 = 0) :
    colTile ⟨n, Nat.lt_of_succ_lt h⟩ = colTile ⟨n + 1, h⟩ := by
  apply Fin.ext
  show n / 32 = (n + 1) / 32
  omega

/-- After every point the carried tiles are the dequantized codes of the point's column tile. -/
theorem carried (c : Dev nD) : ∀ (n : ℕ) (h : n < cfg0.N),
    (outsAt0 m c n h).2.1 = lowTile m c (colTile ⟨n, h⟩) ∧ (outsAt0 m c n h).2.2 = highTile m c (colTile ⟨n, h⟩)
  | 0, h => by
    have h0 : (⟨0, h⟩ : Fin cfg0.N).val % 32 = 0 := rfl
    rw [outsAt0_A m c ⟨0, h⟩ h0]
    dsimp only
    refine ⟨?_, ?_⟩
    · refine (lowTile_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans ?_
      rw [codeBlk_eq, scaleBlk_eq, foldedBlk_eq]; rfl
    · refine (highTile_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans ?_
      rw [codeBlk_eq, scaleBlk_eq, foldedBlk_eq]; rfl
  | n + 1, h => by
    have ih := carried c n (Nat.lt_of_succ_lt h)
    by_cases h0 : (⟨n + 1, h⟩ : Fin cfg0.N).val % 32 = 0
    · rw [outsAt0_A m c ⟨n + 1, h⟩ h0]
      dsimp only
      refine ⟨?_, ?_⟩
      · refine (lowTile_first (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans ?_
        rw [codeBlk_eq, scaleBlk_eq, foldedBlk_eq]; rfl
      · refine (highTile_first (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans ?_
        rw [codeBlk_eq, scaleBlk_eq, foldedBlk_eq]; rfl
    · rw [outsAt0_B m c ⟨n + 1, h⟩ h0]
      dsimp only
      unfold sout0_B_0 sout0_B_1
      have hc := colTile_succ n h h0
      exact ⟨ih.1.trans (congrArg (lowTile m c) hc), ih.2.trans (congrArg (highTile m c) hc)⟩

/-- After every point the output tile is the point's activation blocks against its column tile's dequantized codes. -/
theorem outTile (c : Dev nD) (t : Fin cfg0.N) :
    (outsAt0 m c t.val t.isLt).1 = k0_pay5 (evenBlk m c t) (oddBlk m c t) (lowTile m c (colTile t)) (highTile m c (colTile t)) := by
  by_cases h0 : t.val % 32 = 0
  · rw [outsAt0_A m c t h0]
    dsimp only
    refine (out_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans ?_
    rw [codeBlk_eq, scaleBlk_eq, foldedBlk_eq]; rfl
  · rw [outsAt0_B m c t h0]
    dsimp only
    refine (out_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2).trans ?_
    obtain ⟨n, hn⟩ := t
    cases n with
    | zero => exact absurd rfl h0
    | succ n =>
      have ih := carried m c n (Nat.lt_of_succ_lt hn)
      have hc := colTile_succ n hn h0
      show k0_pay5 _ _ (outsAt0 m c n _).2.1 (outsAt0 m c n _).2.2 = _
      rw [ih.1, ih.2, hc]

end Cert.KernelIdeal.DqTiles

end
-- ==== Proof.Spec.lean ====
/-
  The mathematics both programs compute, stated once over literal shapes and importing neither program.

  A weight matrix of 4096 output rows and 4096 input columns is stored as 4-bit codes, two per 32-bit word: word
  `k` of a row holds the code of input column `2k` in its low four bits and that of column `2k + 1` in the next four.
  Codes are dequantized group-wise: 128 consecutive input columns (64 consecutive words) of a row share one scale and
  one zero point, `w = (code − zero) · scale`. The result is the activations times the transposed weights,
  `out[b, s, o] = ∑ᵢ x[b, s, i] · w[o, i]`.

  `referenceEntry` is that formula as written. `kernelEntry` is the arrangement the kernel evaluates: the sum split
  into the even and the odd input columns, and the zero point folded into the scale beforehand,
  `code · scale − scale · zero`. The two agree on finite scales and zero points (Algebra.lean).
-/
import Idealize.ShloMosaic.PureOps.Ideal
import Idealize.ShloMosaic.Lib.ValueIdx

noncomputable section

namespace Cert.Dequant

open Idealize.ShloMosaic Idealize.ShloMosaic.ValueIdx

/-- Activations: batch 4, sequence 2048, 4096 input columns. -/
abbrev ActShape : Shape := ⟨3, ![4, 2048, 4096]⟩
/-- Packed codes: 4096 output rows, 2048 words of two codes each. -/
abbrev PackedShape : Shape := ⟨2, ![4096, 2048]⟩
/-- Scales and zero points: 4096 output rows, 32 groups. -/
abbrev GroupShape : Shape := ⟨2, ![4096, 32]⟩

/-- The code in a word's low four bits. -/
def lowNibble (q : BitVec 32) : BitVec 32 := q &&& 15#32
/-- The code in the next four bits (the shift is arithmetic; the mask keeps bits 4 to 7 either way). -/
def highNibble (q : BitVec 32) : BitVec 32 := (q.sshiftRight' 4#32) &&& 15#32

/-- The dequantization group of packed word `k`: 64 words to a group. -/
def packedGroup (k : Fin 2048) : Fin 32 := ⟨k.val / 64, by have := k.isLt; omega⟩
/-- The input column whose code sits in the low bits of word `k`. -/
def evenCol (k : Fin 2048) : Fin 4096 := ⟨2 * k.val, by have := k.isLt; omega⟩
/-- The input column whose code sits in the high bits of word `k`. -/
def oddCol (k : Fin 2048) : Fin 4096 := ⟨2 * k.val + 1, by have := k.isLt; omega⟩
/-- The dequantization group of input column `i`: 128 columns to a group. -/
def fullGroup (i : Fin 4096) : Fin 32 := ⟨i.val / 128, by have := i.isLt; omega⟩
/-- The word that holds input column `i`'s code. -/
def packedCol (i : Fin 4096) : Fin 2048 := ⟨i.val / 2, by have := i.isLt; omega⟩
/-- Row `b · 2048 + s` of the activations flattened to 8192 rows. -/
def flatRow (b : Fin 4) (s : Fin 2048) : Fin 8192 := ⟨b.val * 2048 + s.val, by have := b.isLt; have := s.isLt; omega⟩

variable (x : ActShape.Idx → EReal) (qw : PackedShape.Idx → BitVec 32) (sc zr : GroupShape.Idx → EReal)

/-- The kernel's weight for the low code of word `k` of row `o`: `code · scale − scale · zero`. -/
def lowWeight (o : Fin 4096) (k : Fin 2048) : EReal :=
  (((lowNibble (qw (ix2 o k))).toInt : ℝ) : EReal) * sc (ix2 o (packedGroup k)) - sc (ix2 o (packedGroup k)) * zr (ix2 o (packedGroup k))
/-- The same for the high code. -/
def highWeight (o : Fin 4096) (k : Fin 2048) : EReal :=
  (((highNibble (qw (ix2 o k))).toInt : ℝ) : EReal) * sc (ix2 o (packedGroup k)) - sc (ix2 o (packedGroup k)) * zr (ix2 o (packedGroup k))

/-- The kernel's arrangement: even columns against low codes plus odd columns against high codes. -/
def kernelEntry (b : Fin 4) (s : Fin 2048) (o : Fin 4096) : EReal :=
  (∑ k : Fin 2048, x (ix3 b s (evenCol k)) * lowWeight qw sc zr o k)
    + (∑ k : Fin 2048, x (ix3 b s (oddCol k)) * highWeight qw sc zr o k)

/-- Input column `i`'s code in row `o`: low bits of its word for an even column, high bits for an odd one. -/
def code (o : Fin 4096) (i : Fin 4096) : BitVec 32 :=
  if i.val % 2 = 0 then lowNibble (qw (ix2 o (packedCol i))) else highNibble (qw (ix2 o (packedCol i)))
/-- The reference's weight: `(code − zero) · scale`. -/
def refWeight (o : Fin 4096) (i : Fin 4096) : EReal :=
  ((((code qw o i).toInt : ℝ) : EReal) - zr (ix2 o (fullGroup i))) * sc (ix2 o (fullGroup i))
/-- The reference's arrangement: one sum over all 4096 input columns. -/
def referenceEntry (b : Fin 4) (s : Fin 2048) (o : Fin 4096) : EReal :=
  ∑ i : Fin 4096, x (ix3 b s i) * refWeight qw sc zr o i

/-- The kernel's result as an array. -/
def kernelValue : ActShape.Idx → EReal := fun j => kernelEntry x qw sc zr (j 0) (j 1) (j 2)
/-- The reference's result as an array. -/
def referenceValue : ActShape.Idx → EReal := fun j => referenceEntry x qw sc zr (j 0) (j 1) (j 2)

end Cert.Dequant

end
-- ==== Proof.Payload.lean ====
/-
  The kernel body's three stored values read at an index, at the ideal instance.
-/
import proofs.«407883_j68393059222044_3_alg».proof.Proof.Spec
import proofs.«407883_j68393059222044_3_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.DqPayload

open Cert.KernelIdeal Cert.KernelIdeal.Gen Idealize.ShloMosaic Idealize.ShloMosaic.ValueIdx

/-! ## A per-group table spread over the packed columns

A table with one entry per row and group, [512, 32], is given a unit axis, repeated 64 times along it, and flattened
to [512, 2048]. Column k of the result is position k % 64 of group k / 64, so it reads the group's entry. -/

/-- Entry (r, k) of the [512, 32, 64] repetition flattened to [512, 2048] is the table's entry (r, k / 64). -/
theorem spread_apply (t : FVec Ideal S512x32x1 .f32) (r : Fin 512) (k : Fin 2048) :
    shapeCast S512x2048 (broadcastTo S512x32x64 t broadcasts_S512x32x1_S512x32x64) shapeCasts_S512x32x64_S512x2048 (ix2 r k)
      = t (ix3 r (Cert.Dequant.packedGroup k) (0 : Fin 1)) := by
  have h64 : k.val % 64 < 64 := Nat.mod_lt _ (by decide)
  -- flattening: row-major position r · 2048 + k is (r · 32 + k / 64) · 64 + k % 64
  refine (shapeCast_apply _ shapeCasts_S512x32x64_S512x2048 (ix2 r k)
    (ix3 r (Cert.Dequant.packedGroup k) (⟨k.val % 64, h64⟩ : Fin 64)) ?_).trans ?_
  · rw [Shape.rowMajor_val_three, Shape.rowMajor_val_two]
    show (r.val * 32 + k.val / 64) * 64 + k.val % 64 = r.val * 2048 + k.val
    omega
  -- the repetition forgets the position inside the group
  refine broadcastTo_apply t broadcasts_S512x32x1_S512x32x64 _ _ fun a => ?_
  match a with
  | ⟨0, _⟩ => rfl
  | ⟨1, _⟩ => rfl
  | ⟨2, _⟩ => rfl

/-- Giving a [512, 32] table a trailing unit axis keeps its entries. -/
theorem unitAxis_apply (v : FVec Ideal S512x32 .f32) (r : Fin 512) (g : Fin 32) (u : Fin 1) :
    shapeCast S512x32x1 v shapeCasts_S512x32_S512x32x1 (ix3 r g u) = v (ix2 r g) := by
  refine shapeCast_apply v shapeCasts_S512x32_S512x32x1 _ _ ?_
  rw [Shape.rowMajor_val_three, Shape.rowMajor_val_two]
  show r.val * 32 + g.val = (r.val * 32 + g.val) * 1 + u.val
  have := u.isLt
  omega

/-- The scales spread over the packed columns: entry (r, k) is the scale of row r, group k / 64. -/
theorem groupBroadcast_apply (v : FVec Ideal S512x32 .f32) (r : Fin 512) (k : Fin 2048) :
    k0_pay1 (F := Ideal) v (ix2 r k) = v (ix2 r (Cert.Dequant.packedGroup k)) := by
  unfold k0_pay1
  refine (spread_apply _ r k).trans ?_
  rw [shapeCast_self]
  exact unitAxis_apply v r _ _

/-- The folded zero points spread the same way. -/
theorem groupBroadcast_apply' (v : FVec Ideal S512x32 .f32) (r : Fin 512) (k : Fin 2048) :
    k0_pay2 (F := Ideal) v (ix2 r k) = v (ix2 r (Cert.Dequant.packedGroup k)) := by
  unfold k0_pay2
  refine (spread_apply _ r k).trans ?_
  rw [shapeCast_self, shapeCast_self]
  exact unitAxis_apply v r _ _

/-! ## The two dequantized tiles -/

/-- The dequantized low-code tile: `code · scale − folded zero`, the scale and folded zero of the word's group. -/
theorem lowPayload_apply (q : IVec S512x2048 32) (sv zv : FVec Ideal S512x32 .f32) (r : Fin 512) (k : Fin 2048) :
    k0_pay3 (F := Ideal) q sv zv (ix2 r k)
      = (((Cert.Dequant.lowNibble (q (ix2 r k))).toInt : ℝ) : EReal) * sv (ix2 r (Cert.Dequant.packedGroup k)) - zv (ix2 r (Cert.Dequant.packedGroup k)) := by
  unfold k0_pay3
  rw [shapeCast_self]
  -- the format change is the identity; product and difference are entrywise; the mask is the low code
  show (((q (ix2 r k) &&& 15#32).toInt : ℝ) : EReal) * k0_pay1 (F := Ideal) sv (ix2 r k) - k0_pay2 (F := Ideal) zv (ix2 r k) = _
  rw [groupBroadcast_apply, groupBroadcast_apply']
  rfl

/-- The dequantized high-code tile. -/
theorem highPayload_apply (q : IVec S512x2048 32) (sv zv : FVec Ideal S512x32 .f32) (r : Fin 512) (k : Fin 2048) :
    k0_pay4 (F := Ideal) q sv zv (ix2 r k)
      = (((Cert.Dequant.highNibble (q (ix2 r k))).toInt : ℝ) : EReal) * sv (ix2 r (Cert.Dequant.packedGroup k)) - zv (ix2 r (Cert.Dequant.packedGroup k)) := by
  unfold k0_pay4
  rw [shapeCast_self]
  -- a shift by 4, below the word's width, is the arithmetic shift itself
  have hs : IntOp.shrsi .vector (q (ix2 r k)) 4#32 = (q (ix2 r k)).sshiftRight' 4#32 := by
    unfold IntOp.shrsi
    exact if_pos (by decide)
  show (((IntOp.shrsi .vector (q (ix2 r k)) 4#32 &&& 15#32).toInt : ℝ) : EReal) * k0_pay1 (F := Ideal) sv (ix2 r k) - k0_pay2 (F := Ideal) zv (ix2 r k) = _
  rw [hs, groupBroadcast_apply, groupBroadcast_apply']
  rfl

/-! ## The output tile -/

/-- The product's dimension numbers: both operands contract their axis 1; axis 0 of each is kept. -/
abbrev dotDims : DotDims S256x2048 S512x2048 S256x512 := dot_S256x2048_S512x2048_S256x512_1_1_0_0_n_n

/-- The left operand's row is the output's row. -/
theorem dot_lhs_0 (j : S256x512.Idx) (p : dotDims.contr.Idx) : (dotDims.lhsIdx j p 0).val = (j 0).val := by
  unfold DotDims.lhsIdx
  rw [dif_neg (show ¬(0 : Fin S256x2048.rank) ∈ dotDims.lhsBatch by decide),
    dif_pos (show (0 : Fin S256x2048.rank) ∈ dotDims.lhsNonContracting by decide)]
  rfl
/-- The left operand's column is the contraction position. -/
theorem dot_lhs_1 (j : S256x512.Idx) (p : dotDims.contr.Idx) : (dotDims.lhsIdx j p 1).val = (p ⟨0, by decide⟩).val :=
  dotDims.lhsIdx_val_of_single rfl j p
/-- The right operand's row is the output's column. -/
theorem dot_rhs_0 (j : S256x512.Idx) (p : dotDims.contr.Idx) : (dotDims.rhsIdx j p 0).val = (j 1).val := by
  unfold DotDims.rhsIdx
  rw [dif_neg (show ¬(0 : Fin S512x2048.rank) ∈ dotDims.rhsBatch by decide),
    dif_pos (show (0 : Fin S512x2048.rank) ∈ dotDims.rhsNonContracting by decide)]
  rfl
/-- The right operand's column is the contraction position. -/
theorem dot_rhs_1 (j : S256x512.Idx) (p : dotDims.contr.Idx) : (dotDims.rhsIdx j p 1).val = (p ⟨0, by decide⟩).val :=
  dotDims.rhsIdx_val_of_single rfl j p

/-- One product into the zero accumulator: entry (r, c) is the sum over the 2048 packed columns of row r of the
    left operand against row c of the right one. -/
theorem product_apply (x : FVec Ideal S256x2048 .bf16) (w : FVec Ideal S512x2048 .bf16) (r : Fin 256) (c : Fin 512) :
    matmul dotDims none x w (constant (F := Ideal) S256x512 .f32 0x00000000#32) (ix2 r c)
      = ∑ k : Fin 2048, x (ix2 r k) * w (ix2 c k) := by
  refine (Ideal.matmul_constant_zero_apply dotDims none x w (ix2 r c)).trans ?_
  -- the contraction shape has one axis of extent 2048: sum over its coordinate
  rw [← Equiv.sum_comp (contrEquiv1 dotDims 2048 rfl rfl).symm]
  refine Finset.sum_congr rfl fun k _ => ?_
  have hk := contrEquiv1_symm_val dotDims 2048 rfl rfl k
  have el : dotDims.lhsIdx (ix2 r c) ((contrEquiv1 dotDims 2048 rfl rfl).symm k) = ix2 r k :=
    funext fun a => Fin.ext (by
      match a with
      | ⟨0, _⟩ => exact dot_lhs_0 _ _
      | ⟨1, _⟩ => exact (dot_lhs_1 _ _).trans hk)
  have er : dotDims.rhsIdx (ix2 r c) ((contrEquiv1 dotDims 2048 rfl rfl).symm k) = ix2 c k :=
    funext fun a => Fin.ext (by
      match a with
      | ⟨0, _⟩ => exact dot_rhs_0 _ _
      | ⟨1, _⟩ => exact (dot_rhs_1 _ _).trans hk)
  rw [el, er]

/-- The output tile: the two products, each contracted over the 2048 packed columns, added. -/
theorem dotPayload_apply (xe xo : FVec Ideal S256x2048 .bf16) (wl wh : FVec Ideal S512x2048 .bf16) (r : Fin 256) (c : Fin 512) :
    k0_pay5 (F := Ideal) xe xo wl wh (ix2 r c)
      = (∑ k : Fin 2048, xe (ix2 r k) * wl (ix2 c k)) + (∑ k : Fin 2048, xo (ix2 r k) * wh (ix2 c k)) := by
  unfold k0_pay5
  rw [shapeCast_self, shapeCast_self]
  show matmul dotDims none xe wl (constant (F := Ideal) S256x512 .f32 0x00000000#32) (ix2 r c)
      + matmul dotDims none xo wh (constant (F := Ideal) S256x512 .f32 0x00000000#32) (ix2 r c) = _
  rw [product_apply, product_apply]

end Cert.KernelIdeal.DqPayload

end
-- ==== Proof.Region.lean ====
/-
  The array the region writes: every output tile written back is a tile of ONE function of the arrays the region
  finds, the tiles cover the array, so the array ends holding that function.

  Entry (R, o) of the 8192 × 4096 result is the flattened activation row R's even half against row o's dequantized
  low codes plus its odd half against the dequantized high codes, each contracted over the 2048 packed words.
-/
import proofs.«407883_j68393059222044_3_alg».proof.Proof.Tiles
import proofs.«407883_j68393059222044_3_alg».proof.Proof.Payload

set_option maxRecDepth 16384

noncomputable section

namespace Cert.KernelIdeal.DqRegion

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.DqBlocks Cert.KernelIdeal.DqTiles Cert.KernelIdeal.DqPayload
open Cert.Dequant (lowNibble highNibble packedGroup)

variable (m : (ℓ : Loc nD τ sig) → Buf (Elt Ideal) ℓ)

/-- Row `o`'s dequantized low code of word `k`, from the arrays the region finds. -/
def lowW (c : Dev nD) (o : Fin 4096) (k : Fin 2048) : EReal :=
  (((lowNibble (codeArr m c (ix2 o k))).toInt : ℝ) : EReal) * scaleArr m c (ix2 o (packedGroup k)) - foldedArr m c (ix2 o (packedGroup k))
/-- Row `o`'s dequantized high code of word `k`. -/
def highW (c : Dev nD) (o : Fin 4096) (k : Fin 2048) : EReal :=
  (((highNibble (codeArr m c (ix2 o k))).toInt : ℝ) : EReal) * scaleArr m c (ix2 o (packedGroup k)) - foldedArr m c (ix2 o (packedGroup k))
/-- The region's result at flattened row `R`, output row `o`. -/
def regionEntry (c : Dev nD) (R : Fin 8192) (o : Fin 4096) : EReal :=
  (∑ k : Fin 2048, evenArr m c (ix2 R k) * lowW m c o k) + (∑ k : Fin 2048, oddArr m c (ix2 R k) * highW m c o k)
/-- The region's result as an array. -/
def regionValue (c : Dev nD) : FVec Ideal S8192x4096 .f32 :=
  fun i => regionEntry m c ⟨(i 0).val, (i 0).isLt⟩ ⟨(i 1).val, (i 1).isLt⟩

theorem lowTile_apply (c : Dev nD) (j : Fin 8) (q : Fin 512) (k : Fin 2048) :
    lowTile m c j (ix2 q k) = lowW m c (tileCol j q) k := by
  unfold lowTile lowW codeTile scaleTile foldedTile
  generalize codeArr m c = qa
  generalize scaleArr m c = sa
  generalize foldedArr m c = za
  exact lowPayload_apply _ _ _ q k

theorem highTile_apply (c : Dev nD) (j : Fin 8) (q : Fin 512) (k : Fin 2048) :
    highTile m c j (ix2 q k) = highW m c (tileCol j q) k := by
  unfold highTile highW codeTile scaleTile foldedTile
  generalize codeArr m c = qa
  generalize scaleArr m c = sa
  generalize foldedArr m c = za
  exact highPayload_apply _ _ _ q k

/-- The output tile after point `t`, entry by entry. -/
theorem outTile_apply (c : Dev nD) (t : Fin cfg0.N) (r : Fin 256) (q : Fin 512) :
    (outsAt0 m c t.val t.isLt).1 (ix2 r q) = regionEntry m c (tileRow (rowTile t) r) (tileCol (colTile t) q) := by
  rw [outTile m c t]
  refine (dotPayload_apply (evenBlk m c t) (oddBlk m c t) (lowTile m c (colTile t)) (highTile m c (colTile t)) r q).trans ?_
  unfold regionEntry
  have e1 : ∀ k : Fin 2048, evenBlk m c t (ix2 r k) * lowTile m c (colTile t) (ix2 q k)
      = evenArr m c (ix2 (tileRow (rowTile t) r) k) * lowW m c (tileCol (colTile t) q) k := fun k => by
    rw [evenBlk_apply m c t r k, lowTile_apply m c (colTile t) q k]
  have e2 : ∀ k : Fin 2048, oddBlk m c t (ix2 r k) * highTile m c (colTile t) (ix2 q k)
      = oddArr m c (ix2 (tileRow (rowTile t) r) k) * highW m c (tileCol (colTile t) q) k := fun k => by
    rw [oddBlk_apply m c t r k, highTile_apply m c (colTile t) q k]
  exact congrArg₂ (fun a b : EReal => a + b) (Finset.sum_congr rfl fun k _ => e1 k) (Finset.sum_congr rfl fun k _ => e2 k)

/-- What point `t` writes back is tile `t` of the region's result. -/
theorem flushed_eq (c : Dev nD) (t : Fin cfg0.N) :
    (dats m 0 c).flushed 5 t = ((cfg0.win 5).blk t).view.read (Elt Ideal) (regionValue m c) := by
  show (cfg0.win 5).cut (grid0.coords t) ((dats m 0 c).after 5 t) = _
  rw [after0_5]
  funext y
  obtain ⟨r, q, rfl⟩ : ∃ (r : Fin 256) (q : Fin 512), y = ix2 r q := ⟨y 0, y 1, eq_ix2 y⟩
  rw [View.read_apply]
  refine (outTile_apply m c t r q).trans ?_
  obtain ⟨-, -, -, -, -, -, -, -, -, -, e0, e1⟩ := index_facts t
  unfold regionValue
  refine congrArg₂ (regionEntry m c) (Fin.ext ?_) (Fin.ext ?_)
  · show 256 * (t.val % 32) + r.val = win0_5.index t (0 : Fin 2) * 256 + 1 * r.val
    rw [e0]; omega
  · show 512 * (t.val / 32) + q.val = win0_5.index t (1 : Fin 2) * 512 + 1 * q.val
    rw [e1]; omega

/-- An index of the result is in point `t`'s tile iff each coordinate is in the tile's range. -/
theorem mem_tile (t : Fin cfg0.N) (i : S8192x4096.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v8).slice (win0_5.rect t)).set ↔ _
  rw [View.set_slice_whole, Rect.mem_set_unit]
  exact Iff.rfl

/-- Every index of the result is in the tile of the point at its row tile and column tile. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  have ht : 32 * ((i 1).val / 512) + (i 0).val / 256 < cfg0.N := by omega
  obtain ⟨-, -, -, -, -, -, -, -, -, -, e0, e1⟩ := index_facts ⟨32 * ((i 1).val / 512) + (i 0).val / 256, ht⟩
  refine ⟨⟨32 * ((i 1).val / 512) + (i 0).val / 256, ht⟩, flush0_5 _, ?_⟩
  rw [mem_tile]
  intro a
  match a with
  | ⟨0, _⟩ =>
    show win0_5.index ⟨32 * ((i 1).val / 512) + (i 0).val / 256, ht⟩ (0 : Fin 2) * 256 ≤ (i 0).val
      ∧ (i 0).val < win0_5.index ⟨32 * ((i 1).val / 512) + (i 0).val / 256, ht⟩ (0 : Fin 2) * 256 + 256
    rw [e0]
    show (32 * ((i 1).val / 512) + (i 0).val / 256) % 32 * 256 ≤ (i 0).val ∧ (i 0).val < (32 * ((i 1).val / 512) + (i 0).val / 256) % 32 * 256 + 256
    omega
  | ⟨1, _⟩ =>
    show win0_5.index ⟨32 * ((i 1).val / 512) + (i 0).val / 256, ht⟩ (1 : Fin 2) * 512 ≤ (i 1).val
      ∧ (i 1).val < win0_5.index ⟨32 * ((i 1).val / 512) + (i 0).val / 256, ht⟩ (1 : Fin 2) * 512 + 512
    rw [e1]
    show (32 * ((i 1).val / 512) + (i 0).val / 256) / 32 * 512 ≤ (i 1).val ∧ (i 1).val < (32 * ((i 1).val / 512) + (i 0).val / 256) / 32 * 512 + 512
    omega

/-- So the result array ends holding the region's result. -/
theorem final (c : Dev nD) : (dats m 0 c).arrAt 5 cfg0.N = regionValue m c :=
  (dats m 0 c).arrAt_eq_of_cover 5 (regionValue m c) (fun t _ => flushed_eq m c t) (covered)

end Cert.KernelIdeal.DqRegion

end
-- ==== Proof.HostSide.lean ====
/-
  The host operations around the kernel's launch as pure functions, read at an index: the even and the odd input
  columns of the flattened activations, the zero point folded into the scale, and the final un-flattening.
-/
import proofs.«407883_j68393059222044_3_alg».proof.Proof.Spec
import proofs.«407883_j68393059222044_3_alg».proof.Proof.Gen.KernelIdeal
import Idealize.ShloMosaic.Lib.Pipeline.Value
import Idealize.ShloMosaic.Lib.ValueLayout

noncomputable section

namespace Cert.KernelIdeal.DqHost

open Cert.KernelIdeal Cert.KernelIdeal.Gen Idealize.ShloMosaic Idealize.ShloMosaic.ValueIdx

variable {F : FTy → Type} [FloatOps F]

/-- The activations flattened to 8192 rows, split into column pairs, the first of each pair kept. -/
def evenHalf (x : FVec F S4x2048x4096 .f32) : FVec F S8192x2048 .bf16 :=
  shapeCast S8192x2048 (extractStridedSlice S8192x2048x1 ![0, 0, 0]
    (shapeCast S8192x2048x2 (truncf .bf16 (shapeCast S8192x4096 x shapeCasts_S4x2048x4096_S8192x4096) bitsLt_bf16_f32) shapeCasts_S8192x4096_S8192x2048x2)
    slices_S8192x2048x2_S8192x2048x1_0_0_0) shapeCasts_S8192x2048x1_S8192x2048

/-- The same with the second of each pair kept. -/
def oddHalf (x : FVec F S4x2048x4096 .f32) : FVec F S8192x2048 .bf16 :=
  shapeCast S8192x2048 (extractStridedSlice S8192x2048x1 ![0, 0, 1]
    (shapeCast S8192x2048x2 (truncf .bf16 (shapeCast S8192x4096 x shapeCasts_S4x2048x4096_S8192x4096) bitsLt_bf16_f32) shapeCasts_S8192x4096_S8192x2048x2)
    slices_S8192x2048x2_S8192x2048x1_0_0_1) shapeCasts_S8192x2048x1_S8192x2048

/-- The region's 8192-row result back at batch, sequence, output row. -/
def unflatten (y : FVec F S8192x4096 .f32) : FVec F S4x2048x4096 .f32 :=
  shapeCast S4x2048x4096 y shapeCasts_S8192x4096_S4x2048x4096

/-! ## The reshapes one at a time

Every reshape keeps the row-major position. Position (b · 2048 + s) · 4096 + i is entry (b, s, i) of [4, 2048, 4096]
and entry (b · 2048 + s, i) of [8192, 4096]; with i = 2 k + e it is entry (b · 2048 + s, k, e) of [8192, 2048, 2]. -/

/-- Batch and sequence flattened to one row axis: row b · 2048 + s, column i reads entry (b, s, i). -/
theorem flatten_apply {α : Type} (x : S4x2048x4096.Idx → α) (b : Fin 4) (s : Fin 2048) (i : Fin 4096) :
    shapeCast S8192x4096 x shapeCasts_S4x2048x4096_S8192x4096 (ix2 (Cert.Dequant.flatRow b s) i) = x (ix3 b s i) := by
  refine shapeCast_apply x shapeCasts_S4x2048x4096_S8192x4096 _ _ ?_
  rw [Shape.rowMajor_val_three, Shape.rowMajor_val_two]
  show (b.val * 2048 + s.val) * 4096 + i.val = (b.val * 2048 + s.val) * 4096 + i.val
  rfl

/-- The columns split into pairs: pair k, member e reads column 2 k + e. -/
theorem pairs_apply {α : Type} (y : S8192x4096.Idx → α) (R : Fin 8192) (k : Fin 2048) (e : Fin 2) (i : Fin 4096)
    (hi : i.val = 2 * k.val + e.val) :
    shapeCast S8192x2048x2 y shapeCasts_S8192x4096_S8192x2048x2 (ix3 R k e) = y (ix2 R i) := by
  refine shapeCast_apply y shapeCasts_S8192x4096_S8192x2048x2 _ _ ?_
  rw [Shape.rowMajor_val_three, Shape.rowMajor_val_two]
  show R.val * 4096 + i.val = (R.val * 2048 + k.val) * 2 + e.val
  omega

/-- The unit axis a slice leaves behind, dropped. -/
theorem dropUnit_apply {α : Type} (z : S8192x2048x1.Idx → α) (R : Fin 8192) (k : Fin 2048) :
    shapeCast S8192x2048 z shapeCasts_S8192x2048x1_S8192x2048 (ix2 R k) = z (ix3 R k (0 : Fin 1)) := by
  refine shapeCast_apply z shapeCasts_S8192x2048x1_S8192x2048 _ _ ?_
  rw [Shape.rowMajor_val_three, Shape.rowMajor_val_two]
  show (R.val * 2048 + k.val) * 1 + 0 = R.val * 2048 + k.val
  omega

/-! ## The three host operations at an index -/

theorem evenHalf_apply (x : FVec Ideal S4x2048x4096 .f32) (b : Fin 4) (s : Fin 2048) (k : Fin 2048) :
    evenHalf (F := Ideal) x (ix2 (Cert.Dequant.flatRow b s) k) = x (ix3 b s (Cert.Dequant.evenCol k)) := by
  unfold evenHalf
  refine (dropUnit_apply _ _ _).trans ?_
  -- the slice keeps member 0 of each pair
  refine (extractStridedSlice_apply _ _ slices_S8192x2048x2_S8192x2048x1_0_0_0 _
    (ix3 (Cert.Dequant.flatRow b s) k (0 : Fin 2)) fun a => ?_).trans ?_
  · match a with
    | ⟨0, _⟩ => exact (Nat.zero_add _).symm
    | ⟨1, _⟩ => exact (Nat.zero_add _).symm
    | ⟨2, _⟩ => rfl
  refine (pairs_apply _ _ k (0 : Fin 2) (Cert.Dequant.evenCol k) rfl).trans ?_
  -- the format change is the identity on extended reals
  refine (truncf_apply (ψ := .bf16) (shapeCast S8192x4096 x shapeCasts_S4x2048x4096_S8192x4096) bitsLt_bf16_f32 _).trans ?_
  exact flatten_apply x b s _

theorem oddHalf_apply (x : FVec Ideal S4x2048x4096 .f32) (b : Fin 4) (s : Fin 2048) (k : Fin 2048) :
    oddHalf (F := Ideal) x (ix2 (Cert.Dequant.flatRow b s) k) = x (ix3 b s (Cert.Dequant.oddCol k)) := by
  unfold oddHalf
  refine (dropUnit_apply _ _ _).trans ?_
  -- the slice keeps member 1 of each pair
  refine (extractStridedSlice_apply _ _ slices_S8192x2048x2_S8192x2048x1_0_0_1 _
    (ix3 (Cert.Dequant.flatRow b s) k (1 : Fin 2)) fun a => ?_).trans ?_
  · match a with
    | ⟨0, _⟩ => exact (Nat.zero_add _).symm
    | ⟨1, _⟩ => exact (Nat.zero_add _).symm
    | ⟨2, _⟩ => rfl
  refine (pairs_apply _ _ k (1 : Fin 2) (Cert.Dequant.oddCol k) rfl).trans ?_
  refine (truncf_apply (ψ := .bf16) (shapeCast S8192x4096 x shapeCasts_S4x2048x4096_S8192x4096) bitsLt_bf16_f32 _).trans ?_
  exact flatten_apply x b s _

theorem unflatten_apply (y : FVec Ideal S8192x4096 .f32) (b : Fin 4) (s : Fin 2048) (o : Fin 4096) :
    unflatten (F := Ideal) y (ix3 b s o) = y (ix2 (Cert.Dequant.flatRow b s) o) := by
  unfold unflatten
  refine shapeCast_apply y shapeCasts_S8192x4096_S4x2048x4096 _ _ ?_
  rw [Shape.rowMajor_val_three, Shape.rowMajor_val_two]
  show (b.val * 2048 + s.val) * 4096 + o.val = (b.val * 2048 + s.val) * 4096 + o.val
  rfl

end Cert.KernelIdeal.DqHost

end
-- ==== Proof.KernelRun.lean ====
/-
  The kernel program's result, as the specification's kernel arrangement of its four arguments.

  Before the launch the host flattens the activations to 8192 rows and splits their columns into the even and the odd
  ones, and multiplies each scale by its zero point; after it the host reshapes the 8192 × 4096 result back to
  batch, sequence, output row. Read at an index, these turn the region's result into `Cert.Dequant.kernelValue`.
-/
import proofs.«407883_j68393059222044_3_alg».proof.Proof.Region
import proofs.«407883_j68393059222044_3_alg».proof.Proof.HostSide
import Idealize.ShloMosaic.Lib.StableHlo.Run

set_option maxRecDepth 16384

noncomputable section

namespace Cert.KernelIdeal.DqRun

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.DqBlocks Cert.KernelIdeal.DqRegion Cert.KernelIdeal.DqHost
open Cert.Dequant (flatRow evenCol oddCol packedGroup)

variable (m : (ℓ : Loc nD τ sig) → Buf (Elt Ideal) ℓ) (ρ : Dev nD → PrngReg)

/-- The program's four arguments as launched, at their literal types. -/
abbrev actArg (c : Dev nD) : FVec Ideal S4x2048x4096 .f32 := m ((c : Thread nD τ).loc main_arg0)
abbrev codeArg (c : Dev nD) : IVec S4096x2048 32 := m ((c : Thread nD τ).loc main_arg1)
abbrev scaleArg (c : Dev nD) : FVec Ideal S4096x32 .f32 := m ((c : Thread nD τ).loc main_arg2)
abbrev zeroArg (c : Dev nD) : FVec Ideal S4096x32 .f32 := m ((c : Thread nD τ).loc main_arg3)

/-- The region finds the even columns of the flattened activations in its first operand, -/
theorem evenArr_eq (c : Dev nD) : evenArr m c = evenHalf (F := Ideal) (m ((c : Thread nD τ).loc main_arg0)) := by
  show StableHlo.after hostOps0 (fun b => m (c, b)) (Proc.devRef .tc main_v4) = _
  after_results
  rfl
/-- the odd columns in its second, -/
theorem oddArr_eq (c : Dev nD) : oddArr m c = oddHalf (F := Ideal) (m ((c : Thread nD τ).loc main_arg0)) := by
  show StableHlo.after hostOps0 (fun b => m (c, b)) (Proc.devRef .tc main_v6) = _
  after_results
  rfl
/-- and scale times zero point in its fifth. -/
theorem foldedArr_eq (c : Dev nD) : foldedArr m c = mulf (m ((c : Thread nD τ).loc main_arg2)) (m ((c : Thread nD τ).loc main_arg3)) := by
  show StableHlo.after hostOps0 (fun b => m (c, b)) (Proc.devRef .tc main_v7) = _
  after_results

theorem lowW_eq (c : Dev nD) (o : Fin 4096) (k : Fin 2048) :
    lowW m c o k = Cert.Dequant.lowWeight (m ((c : Thread nD τ).loc main_arg1)) (m ((c : Thread nD τ).loc main_arg2)) (m ((c : Thread nD τ).loc main_arg3)) o k := by
  unfold lowW Cert.Dequant.lowWeight
  rw [show codeArr m c = (m ((c : Thread nD τ).loc main_arg1)) from V_main_arg1 m c, show scaleArr m c = (m ((c : Thread nD τ).loc main_arg2)) from V_main_arg2 m c, foldedArr_eq]
  rfl

theorem highW_eq (c : Dev nD) (o : Fin 4096) (k : Fin 2048) :
    highW m c o k = Cert.Dequant.highWeight (m ((c : Thread nD τ).loc main_arg1)) (m ((c : Thread nD τ).loc main_arg2)) (m ((c : Thread nD τ).loc main_arg3)) o k := by
  unfold highW Cert.Dequant.highWeight
  rw [show codeArr m c = (m ((c : Thread nD τ).loc main_arg1)) from V_main_arg1 m c, show scaleArr m c = (m ((c : Thread nD τ).loc main_arg2)) from V_main_arg2 m c, foldedArr_eq]
  rfl

/-- The program's result buffer after the run: the region's result un-flattened, which is the kernel arrangement. -/
theorem result_eq (c : Dev nD) :
    Pipeline.afterTail₀ cfgs (dats m) 0 (V0 m) [hostOps1] c main_v9
      = Cert.Dequant.kernelValue (m ((c : Thread nD τ).loc main_arg0)) (m ((c : Thread nD τ).loc main_arg1)) (m ((c : Thread nD τ).loc main_arg2)) (m ((c : Thread nD τ).loc main_arg3)) := by
  have h1 : Pipeline.afterTail₀ cfgs (dats m) 0 (V0 m) [hostOps1] c main_v9 = unflatten (F := Ideal) (regionValue m c) := by
    unfold Pipeline.afterTail₀
    show StableHlo.after hostOps1 _ (Proc.devRef .tc main_v9) = _
    after_results
    have hw : Pipeline.withArrays (cfgs 0).spec c (V0 m c) (fun w => (dats m 0 c).arrAt w (cfgs 0).N) (Proc.tc.devRef main_v8)
        = regionValue m c :=
      (Pipeline.withArrays_arr spec0 launch0.win.arr_inj c _ _ 5).trans (final m c)
    rw [hw]
    rfl
  rw [h1]
  funext j
  obtain ⟨b, s, o, rfl⟩ : ∃ (b : Fin 4) (s : Fin 2048) (o : Fin 4096), j = ix3 b s o := ⟨j 0, j 1, j 2, eq_ix3 j⟩
  rw [unflatten_apply]
  show regionEntry m c (flatRow b s) o = Cert.Dequant.kernelEntry _ _ _ _ b s o
  unfold regionEntry Cert.Dequant.kernelEntry
  have e1 : ∀ k : Fin 2048, evenArr m c (ix2 (flatRow b s) k) * lowW m c o k
      = actArg m c (ix3 b s (evenCol k)) * Cert.Dequant.lowWeight (codeArg m c) (scaleArg m c) (zeroArg m c) o k := fun k => by
    rw [evenArr_eq, evenHalf_apply, lowW_eq]
  have e2 : ∀ k : Fin 2048, oddArr m c (ix2 (flatRow b s) k) * highW m c o k
      = actArg m c (ix3 b s (oddCol k)) * Cert.Dequant.highWeight (codeArg m c) (scaleArg m c) (zeroArg m c) o k := fun k => by
    rw [oddArr_eq, oddHalf_apply, highW_eq]
  exact congrArg₂ (fun a b : EReal => a + b) (Finset.sum_congr rfl fun k _ => e1 k) (Finset.sum_congr rfl fun k _ => e2 k)

/-- The run, read: the result buffer at the kernel arrangement of the arguments, the arguments unchanged. -/
theorem run : θ_run defs (onTc (τ := τ) (main (F := Ideal))) ⟨m, fun _ => 0, ρ⟩ fun r => ∀ c : Dev nD,
      r.2.mem ((c.tc : Thread nD τ).loc main_v9)
        = Cert.Dequant.kernelValue (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v9 (Pipeline.mem_restRefs_of main_v9 (by decide) (by decide))).trans (result_eq m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c))⟩)
    (run_main m ρ)

end Cert.KernelIdeal.DqRun

end
-- ==== Proof.RefValue.lean ====
/-
  The reference program's result, read at an index, is `Cert.Dequant.referenceValue`.
-/
import proofs.«407883_j68393059222044_3_alg».proof.Proof.Spec
import proofs.«407883_j68393059222044_3_alg».proof.Proof.Gen.ReferenceIdeal.Read

noncomputable section

namespace Cert.ReferenceIdeal.DqRef

open Cert.ReferenceIdeal Idealize.ShloMosaic Idealize.ShloMosaic.ValueIdx

/-- Slot 0 of word `k` of row `o` in the joined array is the word's low code. -/
theorem v8_low (x1 : IVec S4096x2048 32) (o : Fin 4096) (k : Fin 2048) :
    Read.val_main_v8 (F := Ideal) x1 (ix3 o k (0 : Fin 2)) = Cert.Dequant.lowNibble (x1 (ix2 o k)) := by
  unfold Read.val_main_v8
  refine (concatenate_pair_apply_left (t := S4096x2048x2) (s₁ := S4096x2048x1) (s₂ := S4096x2048x1) _ _ _ _ (ix3 o k (0 : Fin 2)) rfl (ix3 o k (0 : Fin 1)) (fun b => ?_)).trans ?_
  · match b with
    | ⟨0, _⟩ => rfl
    | ⟨1, _⟩ => rfl
    | ⟨2, _⟩ => rfl
  · rw [Read.val_main_v6_apply, Read.val_main_v1_apply, Read.val_main_v0_apply, Read.val_main_c_apply]
    have e : Read.idx_main_v6 (ix3 o k (0 : Fin 1)) = ix2 o k := by
      funext a
      match a with
      | ⟨0, _⟩ => rfl
      | ⟨1, _⟩ => rfl
    rw [e]
    rfl

/-- Slot 1 of word `k` of row `o` in the joined array is the word's high code. -/
theorem v8_high (x1 : IVec S4096x2048 32) (o : Fin 4096) (k : Fin 2048) :
    Read.val_main_v8 (F := Ideal) x1 (ix3 o k (1 : Fin 2)) = Cert.Dequant.highNibble (x1 (ix2 o k)) := by
  unfold Read.val_main_v8
  refine (concatenate_pair_apply_right (t := S4096x2048x2) (s₁ := S4096x2048x1) (s₂ := S4096x2048x1) _ _ _ _ (ix3 o k (1 : Fin 2)) rfl rfl (ix3 o k (0 : Fin 1)) (fun b hb => ?_) rfl).trans ?_
  · match b, hb with
    | ⟨0, _⟩, _ => rfl
    | ⟨1, _⟩, _ => rfl
    | ⟨2, _⟩, hb => exact absurd rfl hb
  · rw [Read.val_main_v7_apply, Read.val_main_v5_apply, Read.val_main_v4_apply, Read.val_main_c_1_apply,
      Read.val_main_v3_apply, Read.val_main_v2_apply, Read.val_main_c_0_apply]
    have e : Read.idx_main_v7 (ix3 o k (0 : Fin 1)) = ix2 o k := by
      funext a
      match a with
      | ⟨0, _⟩ => rfl
      | ⟨1, _⟩ => rfl
    rw [e]
    have hs : IntOp.shrsi .host (x1 (ix2 o k)) 4#32 = (x1 (ix2 o k)).sshiftRight' 4#32 := by
      unfold IntOp.shrsi
      rw [if_pos (by decide)]
    rw [hs]
    rfl

/-- The joined array at word `k`, slot `t` of row `o`: the low code in slot 0, the high code in slot 1. -/
theorem v8_apply (x1 : IVec S4096x2048 32) (o : Fin 4096) (k : Fin 2048) (t : Fin 2) :
    Read.val_main_v8 (F := Ideal) x1 (ix3 o k t)
      = if t.val = 0 then Cert.Dequant.lowNibble (x1 (ix2 o k)) else Cert.Dequant.highNibble (x1 (ix2 o k)) := by
  match t with
  | ⟨0, _⟩ => exact v8_low x1 o k
  | ⟨1, _⟩ => exact v8_high x1 o k

/-- Entry `(o, i)` of the dequantized weight matrix: `(code − zero) · scale`, with column `i`'s code in word
    `i / 2`, slot `i % 2`, and its zero point and scale those of group `i / 128`. -/
theorem weight_apply (x1 : IVec S4096x2048 32) (x2 x3 : FVec Ideal S4096x32 .f32) (o : Fin 4096) (i : Fin 4096) :
    Read.val_main_v18 (F := Ideal) x1 x2 x3 (ix2 o i) = Cert.Dequant.refWeight x1 x2 x3 o i := by
  have ho : o.val < 4096 := o.isLt
  have hi : i.val < 4096 := i.isLt
  -- the flat position `o · 4096 + i` read back through the reshapes
  have e11 : Read.idx_main_v11 (Read.idx_main_v18 (ix2 o i)) = ix2 o i := by
    funext a
    apply Fin.ext
    match a with
    | ⟨0, _⟩ =>
      show ((((o.val * 4096 + i.val) / 4096) * 32 + (o.val * 4096 + i.val) / 128 % 32) * 128 + (o.val * 4096 + i.val) % 128) / 4096 = o.val
      omega
    | ⟨1, _⟩ =>
      show ((((o.val * 4096 + i.val) / 4096) * 32 + (o.val * 4096 + i.val) / 128 % 32) * 128 + (o.val * 4096 + i.val) % 128) % 4096 = i.val
      omega
  have e9 : Read.idx_main_v9 (ix2 o i)
      = ix3 o (Cert.Dequant.packedCol i) (⟨i.val % 2, Nat.mod_lt _ (by decide)⟩ : Fin 2) := by
    funext a
    apply Fin.ext
    match a with
    | ⟨0, _⟩ => show (o.val * 4096 + i.val) / 4096 = o.val; omega
    | ⟨1, _⟩ => show (o.val * 4096 + i.val) / 2 % 2048 = i.val / 2; omega
    | ⟨2, _⟩ => show (o.val * 4096 + i.val) % 2 = i.val % 2; omega
  have eg (f : S4096x32x1.Idx → S4096x32.Idx)
      (hf : ∀ q : S4096x32x1.Idx, f q = fun a => match a with
        | ⟨0, _⟩ => ⟨(q 0).val, (q 0).isLt⟩
        | ⟨1, _⟩ => ⟨(q 1).val, (q 1).isLt⟩) :
      f (Read.idx_main_v13 (Read.idx_main_v18 (ix2 o i))) = ix2 o (Cert.Dequant.fullGroup i) := by
    rw [hf]
    funext a
    apply Fin.ext
    match a with
    | ⟨0, _⟩ => show (o.val * 4096 + i.val) / 4096 = o.val; omega
    | ⟨1, _⟩ => show (o.val * 4096 + i.val) / 128 % 32 = i.val / 128; omega
  have e12 : Read.idx_main_v12 (Read.idx_main_v13 (Read.idx_main_v18 (ix2 o i))) = ix2 o (Cert.Dequant.fullGroup i) :=
    eg Read.idx_main_v12 (fun _ => rfl)
  have e15 : Read.idx_main_v15 (Read.idx_main_v16 (Read.idx_main_v18 (ix2 o i))) = ix2 o (Cert.Dequant.fullGroup i) :=
    eg Read.idx_main_v15 (fun _ => rfl)
  rw [Read.val_main_v18_apply, Read.val_main_v17_apply, Read.val_main_v14_apply, Read.val_main_v11_apply,
    Read.val_main_v10_apply, Read.val_main_v13_apply, Read.val_main_v12_apply, Read.val_main_v16_apply,
    Read.val_main_v15_apply, e11, e12, e15, Read.val_main_v9_apply, e9, v8_apply]
  rfl

/-- The reference's last stage, as a function of its four arguments, is the reference arrangement of the specification. -/
theorem val_eq (x0 : FVec Ideal S4x2048x4096 .f32) (x1 : IVec S4096x2048 32) (x2 x3 : FVec Ideal S4096x32 .f32) :
    Cert.ReferenceIdeal.Read.val_main_v19 (F := Ideal) x0 x1 x2 x3 = Cert.Dequant.referenceValue x0 x1 x2 x3 := by
  funext j
  obtain ⟨b, s, o, rfl⟩ : ∃ (b : Fin 4) (s : Fin 2048) (o : Fin 4096), j = ix3 b s o := ⟨j 0, j 1, j 2, eq_ix3 j⟩
  rw [Read.val_main_v19_apply]
  show _ = Cert.Dequant.referenceEntry x0 x1 x2 x3 b s o
  unfold Cert.Dequant.referenceEntry
  refine Finset.sum_congr rfl fun k _ => ?_
  have el : Read.lidx_main_v19 (ix3 b s o) k = ix3 b s k := by
    funext a
    match a with
    | ⟨0, _⟩ => rfl
    | ⟨1, _⟩ => rfl
    | ⟨2, _⟩ => rfl
  have er : Read.ridx_main_v19 (ix3 b s o) k = ix2 o k := by
    funext a
    match a with
    | ⟨0, _⟩ => rfl
    | ⟨1, _⟩ => rfl
  rw [el, er, weight_apply]

end Cert.ReferenceIdeal.DqRef

end
-- ==== Proof.Algebra.lean ====
/-
  The kernel's arrangement and the reference's are equal on finite activations, scales and zero points.
-/
import proofs.«407883_j68393059222044_3_alg».proof.Proof.Spec
import Mathlib.Algebra.BigOperators.Fin
import Mathlib.Logic.Equiv.Fin.Basic

noncomputable section

namespace Cert.Dequant

open Idealize.ShloMosaic Idealize.ShloMosaic.ValueIdx

/-- A sum over the 4096 input columns is the sum over the even columns plus the sum over the odd ones: column
    `2k + t` with `t < 2` runs through every column once, so the sum is a double sum over `k` and `t`, and the inner
    sum has the two terms `t = 0` and `t = 1`. Only commutativity and associativity of the addition are used. -/
theorem sum_even_odd (f : Fin 4096 → EReal) :
    ∑ i, f i = (∑ k : Fin 2048, f (evenCol k)) + ∑ k : Fin 2048, f (oddCol k) := by
  calc ∑ i, f i
      = ∑ p : Fin 2048 × Fin 2, f (finProdFinEquiv p) := (Equiv.sum_comp (finProdFinEquiv (m := 2048) (n := 2)) f).symm
    _ = ∑ k : Fin 2048, ∑ t : Fin 2, f (finProdFinEquiv (k, t)) := Fintype.sum_prod_type _
    _ = ∑ k : Fin 2048, (f (evenCol k) + f (oddCol k)) := Finset.sum_congr rfl fun k _ => by
        rw [Fin.sum_univ_two]
        have h0 : (finProdFinEquiv (k, (0 : Fin 2)) : Fin 4096) = evenCol k := Fin.ext (by simp [finProdFinEquiv, evenCol])
        have h1 : (finProdFinEquiv (k, (1 : Fin 2)) : Fin 4096) = oddCol k := Fin.ext (by simp [finProdFinEquiv, oddCol]; omega)
        rw [h0, h1]
    _ = (∑ k : Fin 2048, f (evenCol k)) + ∑ k : Fin 2048, f (oddCol k) := Finset.sum_add_distrib

/-- An even column `2k` lies in the group of its word: `2k / 128 = k / 64`. -/
theorem fullGroup_evenCol (k : Fin 2048) : fullGroup (evenCol k) = packedGroup k :=
  Fin.ext (by show (2 * k.val) / 128 = k.val / 64; omega)

/-- An odd column `2k + 1` lies in the group of its word: `(2k + 1) / 128 = k / 64`. -/
theorem fullGroup_oddCol (k : Fin 2048) : fullGroup (oddCol k) = packedGroup k :=
  Fin.ext (by show (2 * k.val + 1) / 128 = k.val / 64; omega)

/-- Column `2k` is stored in word `k`. -/
theorem packedCol_evenCol (k : Fin 2048) : packedCol (evenCol k) = k :=
  Fin.ext (by show (2 * k.val) / 2 = k.val; omega)

/-- Column `2k + 1` is stored in word `k`. -/
theorem packedCol_oddCol (k : Fin 2048) : packedCol (oddCol k) = k :=
  Fin.ext (by show (2 * k.val + 1) / 2 = k.val; omega)

/-- The code of an even column is the low code of its word. -/
theorem code_evenCol (qw : PackedShape.Idx → BitVec 32) (o : Fin 4096) (k : Fin 2048) :
    code qw o (evenCol k) = lowNibble (qw (ix2 o k)) := by
  have h : (evenCol k).val % 2 = 0 := by show (2 * k.val) % 2 = 0; omega
  unfold code
  rw [if_pos h, packedCol_evenCol]

/-- The code of an odd column is the high code of its word. -/
theorem code_oddCol (qw : PackedShape.Idx → BitVec 32) (o : Fin 4096) (k : Fin 2048) :
    code qw o (oddCol k) = highNibble (qw (ix2 o k)) := by
  have h : ¬ (oddCol k).val % 2 = 0 := by show ¬ (2 * k.val + 1) % 2 = 0; omega
  unfold code
  rw [if_neg h, packedCol_oddCol]

/-- For real numbers, `(q − z) · c = q · c − c · z`; read in the extended reals at finite `z` and `c`. -/
theorem sub_mul_finite (q : ℝ) (z c : EReal) (hz : ∃ r : ℝ, z = (r : EReal)) (hc : ∃ r : ℝ, c = (r : EReal)) :
    ((q : EReal) - z) * c = (q : EReal) * c - c * z := by
  obtain ⟨z', rfl⟩ := hz
  obtain ⟨c', rfl⟩ := hc
  rw [← EReal.coe_sub, ← EReal.coe_mul, ← EReal.coe_mul, ← EReal.coe_mul, ← EReal.coe_sub]
  exact congrArg _ (by ring)

/-- The reference's weight at an even column is the kernel's weight for the low code. -/
theorem refWeight_even (qw : PackedShape.Idx → BitVec 32) (sc zr : GroupShape.Idx → EReal)
    (hs : ∀ j, ∃ r : ℝ, sc j = (r : EReal)) (hz : ∀ j, ∃ r : ℝ, zr j = (r : EReal)) (o : Fin 4096) (k : Fin 2048) :
    refWeight qw sc zr o (evenCol k) = lowWeight qw sc zr o k := by
  unfold refWeight lowWeight
  rw [code_evenCol, fullGroup_evenCol]
  exact sub_mul_finite _ _ _ (hz _) (hs _)

/-- The reference's weight at an odd column is the kernel's weight for the high code. -/
theorem refWeight_odd (qw : PackedShape.Idx → BitVec 32) (sc zr : GroupShape.Idx → EReal)
    (hs : ∀ j, ∃ r : ℝ, sc j = (r : EReal)) (hz : ∀ j, ∃ r : ℝ, zr j = (r : EReal)) (o : Fin 4096) (k : Fin 2048) :
    refWeight qw sc zr o (oddCol k) = highWeight qw sc zr o k := by
  unfold refWeight highWeight
  rw [code_oddCol, fullGroup_oddCol]
  exact sub_mul_finite _ _ _ (hz _) (hs _)

theorem kernelEntry_eq_referenceEntry (x : ActShape.Idx → EReal) (qw : PackedShape.Idx → BitVec 32) (sc zr : GroupShape.Idx → EReal)
    (hx : ∀ j, ∃ r : ℝ, x j = (r : EReal)) (hs : ∀ j, ∃ r : ℝ, sc j = (r : EReal)) (hz : ∀ j, ∃ r : ℝ, zr j = (r : EReal))
    (b : Fin 4) (s : Fin 2048) (o : Fin 4096) :
    kernelEntry x qw sc zr b s o = referenceEntry x qw sc zr b s o := by
  unfold kernelEntry referenceEntry
  rw [sum_even_odd (fun i => x (ix3 b s i) * refWeight qw sc zr o i)]
  refine congrArg₂ (· + ·) ?_ ?_
  · exact Finset.sum_congr rfl fun k _ => by rw [refWeight_even qw sc zr hs hz]
  · exact Finset.sum_congr rfl fun k _ => by rw [refWeight_odd qw sc zr hs hz]

theorem kernelValue_eq_referenceValue (x : ActShape.Idx → EReal) (qw : PackedShape.Idx → BitVec 32) (sc zr : GroupShape.Idx → EReal)
    (hx : ∀ j, ∃ r : ℝ, x j = (r : EReal)) (hs : ∀ j, ∃ r : ℝ, sc j = (r : EReal)) (hz : ∀ j, ∃ r : ℝ, zr j = (r : EReal)) :
    kernelValue x qw sc zr = referenceValue x qw sc zr :=
  funext fun j => kernelEntry_eq_referenceEntry x qw sc zr hx hs hz (j 0) (j 1) (j 2)

end Cert.Dequant

end
-- ==== Proof.Finite.lean ====
/-
  The precondition says every activation, scale and zero point is a real number.
-/
import proofs.«407883_j68393059222044_3_alg».proof.Pre_finite_inputs
import proofs.«407883_j68393059222044_3_alg».proof.Proof.Gen.Pre_finite_inputs
import Idealize.ShloMosaic.PureOps.Ideal
import Idealize.ShloMosaic.Lib.ValueIdx
import Idealize.ShloMosaic.Lib.ReduceAll

noncomputable section

namespace Cert.Dequant

open Idealize.ShloMosaic Idealize.ShloMosaic.ValueIdx

/-- The rank-0 shape has one index. -/
instance subsingletonScalarIdxOfPre : Subsingleton Cert.Pre_finite_inputs.S_.Idx := ⟨fun a b => funext fun d => d.elim0⟩

/-- The pattern `0x7F800000` denotes `+∞`: exponent field all ones, significand zero, sign clear. -/
theorem ofBits_inf_f32 : Ideal.ofBits .f32 0x7F800000#32 = (⊤ : EReal) := by simp [Ideal.ofBits, Ideal.ieee]

/-- An extended real whose absolute value `max a (−a)` is below `+∞` is a real number: it is not `+∞` (then
    `max a (−a) = +∞`) and not `−∞` (then `−a = +∞`). -/
theorem real_of_abs_lt_top (a : EReal) (h : max a (-a) < ⊤) : ∃ r : ℝ, a = (r : EReal) := by
  induction a using EReal.rec with
  | bot => simp at h
  | coe r => exact ⟨r, rfl⟩
  | top => simp at h

/-- The comparison `|a| < +∞` being 1 at an index says the element there is a real number. The compared array is
    the scalar `+∞` broadcast, which reads `+∞` at every index. -/
theorem real_of_cmp {s : Shape} (hb : Cert.Pre_finite_inputs.S_.BroadcastsInDim s (![] : Fin 0 → Fin s.rank))
    (a : FVec Ideal s .f32) (j : s.Idx)
    (h : cmpf .olt (Host.absf a) (broadcastInDim s ![] hb (constant (F := Ideal) Cert.Pre_finite_inputs.S_ .f32 0x7F800000#32)) j = 1#1) :
    ∃ r : ℝ, a j = (r : EReal) := by
  have h' : Ideal.cmp .olt (max (a j : EReal) (-(a j : EReal))) (Ideal.ofBits .f32 0x7F800000#32) = 1#1 := h
  rw [ofBits_inf_f32] at h'
  refine real_of_abs_lt_top (a j) ?_
  by_contra hn
  simp [Ideal.cmp, hn] at h'

theorem finite_of_pre (x : FVec Ideal Cert.Pre_finite_inputs.S4x2048x4096 .f32) (qw : IVec Cert.Pre_finite_inputs.S4096x2048 32)
    (sc zr : FVec Ideal Cert.Pre_finite_inputs.S4096x32 .f32)
    (h : Cert.Pre_finite_inputs.fn (F := Ideal) x qw sc zr = fun _ => 1#1) :
    (∀ j, ∃ r : ℝ, x j = (r : EReal)) ∧ (∀ j, ∃ r : ℝ, sc j = (r : EReal)) ∧ (∀ j, ∃ r : ℝ, zr j = (r : EReal)) := by
  -- the result's one element is the conjunction of the three reductions
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- a reduction by `and` over all axes that is 1 had a 1 at every index
  refine ⟨fun j => ?_, fun j => ?_, fun j => ?_⟩
  · exact real_of_cmp _ x j (Host.reduce_andi_all _ _ _ _ ValueIdx.ix0 h1 j)
  · exact real_of_cmp _ sc j (Host.reduce_andi_all _ _ _ _ ValueIdx.ix0 h2 j)
  · exact real_of_cmp _ zr j (Host.reduce_andi_all _ _ _ _ ValueIdx.ix0 h3 j)

end Cert.Dequant

end
-- ==== Proof.lean ====
/-
  A 4-bit group-quantized linear layer: out[b, s, o] = ∑ᵢ x[b, s, i] · w[o, i], the weights stored as 4-bit codes,
  two to a 32-bit word (low four bits: the even input column; next four: the odd one), dequantized with one scale and
  one zero point per 128 input columns of a row, w = (code − zero) · scale.

  The reference dequantizes the whole weight matrix as written and contracts over all 4096 input columns. The kernel
  splits the activations into their even and odd columns on the host, folds the zero point into the scale there
  (scale · zero), dequantizes a 512-row tile of codes once per column tile of its grid into two carried tiles
  (code · scale − scale · zero for the low and for the high codes, the group being 64 consecutive words), reuses them
  for the 32 row tiles of that column tile, and adds the two contractions over the 2048 words.

  Over the extended reals the two are equal where scales, zero points and activations are finite — which is the
  precondition —: (code − zero) · scale = code · scale − scale · zero is distributivity, which fails at infinities,
  and a sum over 4096 columns is the sum over its even plus the sum over its odd columns (Algebra.lean). The codes are
  the same integers on both sides (the same mask and arithmetic shift), read signed and exactly.

  Modules: Spec (the two arrangements), Algebra (their equality), Finite (the precondition read), RefValue (the
  reference's stages read at an index), Payload (the kernel body's stored values at an index), HostSide (the host
  operations around the launch), Pieces, Blocks, Tiles (what the carried tiles and the output tile hold after every
  grid point, by induction on the point), Region (tiles to the whole array), KernelRun (the run, read).
-/
import proofs.«407883_j68393059222044_3_alg».proof.Defs
import proofs.«407883_j68393059222044_3_alg».proof.Proof.Gen.Kernel
import proofs.«407883_j68393059222044_3_alg».proof.Proof.Gen.Kernel.Skeleton
import proofs.«407883_j68393059222044_3_alg».proof.Proof.Gen.Kernel.Launch
import proofs.«407883_j68393059222044_3_alg».proof.Proof.Gen.Kernel.Points
import proofs.«407883_j68393059222044_3_alg».proof.Proof.Gen.Kernel.Frame
import proofs.«407883_j68393059222044_3_alg».proof.Proof.Gen.KernelIdeal
import proofs.«407883_j68393059222044_3_alg».proof.Proof.Gen.KernelIdeal.Skeleton
import proofs.«407883_j68393059222044_3_alg».proof.Proof.Gen.KernelIdeal.Launch
import proofs.«407883_j68393059222044_3_alg».proof.Proof.Gen.KernelIdeal.Points
import proofs.«407883_j68393059222044_3_alg».proof.Proof.Gen.KernelIdeal.Frame
import proofs.«407883_j68393059222044_3_alg».proof.Proof.Gen.ReferenceIdeal
import proofs.«407883_j68393059222044_3_alg».proof.Proof.Gen.Pre_finite_inputs
import proofs.«407883_j68393059222044_3_alg».proof.Proof.Gen.ReferenceIdeal.Run
import proofs.«407883_j68393059222044_3_alg».proof.Proof.Gen.ReferenceIdeal.Read
import proofs.«407883_j68393059222044_3_alg».proof.Proof.KernelRun
import proofs.«407883_j68393059222044_3_alg».proof.Proof.RefValue
import proofs.«407883_j68393059222044_3_alg».proof.Proof.Algebra
import proofs.«407883_j68393059222044_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end, the kernel at the kernel arrangement of its arguments and the reference at the reference
    arrangement of arguments that agree; the arrangements are equal because the precondition makes every activation,
    scale and zero point a real number. -/
theorem algebraic : Cert.algebraic_KernelIdeal_ReferenceIdeal := by
  intro m ρ m' ρ' hpre hagree
  refine ⟨_, Cert.KernelIdeal.DqRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.DqRef.val_eq,
    (hagree c).1, (hagree c).2.1, (hagree c).2.2.1, (hagree c).2.2.2]
  obtain ⟨hx, hs, hz⟩ := Cert.Dequant.finite_of_pre _ _ _ _ (hpre c)
  exact (Cert.Dequant.kernelValue_eq_referenceValue _ _ _ _ hx hs hz).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
